-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4 : Shape := ⟨3, ![8, 2048, 4]⟩
abbrev S_ : Shape := ⟨0, ![]⟩

class Facts : Prop where
  bcast_S_S8x2048x4 : S_.BroadcastsInDim S8x2048x4 (![] : Fin 0 → Fin S8x2048x4.rank)
  reducesTo_S8x2048x4_S_d0_1_2 : S8x2048x4.ReducesTo [0, 1, 2] S_
  h_S_ : 0 < S_.numel

variable [Facts]

def fn_part1 {F : FTy → Type} [FloatOps F] (main_v13 : IVec S_ 1) (main_v16 : IVec S8x2048x4 1) : IVec S_ 1 :=
  let main_c_5 : IVec S_ 1 := constantI S_ 1 1#1
  let main_v17 : IVec S_ 1 := (fun x v => Host.reduce IntOp.andi x v reducesTo_S8x2048x4_S_d0_1_2 h_S_) main_v16 main_c_5
  let main_v18 : IVec S_ 1 := andi main_v13 main_v17
  main_v18

def fn {F : FTy → Type} [FloatOps F] (main_arg0 : FVec F S8x2048x4 .f32) (main_arg1 : FVec F S8x2048x4 .f32) (main_arg2 : FVec F S8x2048x4 .f32) (main_arg3 : FVec F S8x2048x4 .f32) : IVec S_ 1 :=
  let main_v0 : FVec F S8x2048x4 .f32 := Host.absf main_arg0
  let main_cst : FVec F S_ .f32 := constant S_ .f32 0x7F800000#32
  let main_v1 : FVec F S8x2048x4 .f32 := broadcastInDim S8x2048x4 ![] bcast_S_S8x2048x4 main_cst
  let main_v2 : IVec S8x2048x4 1 := cmpf .olt main_v0 main_v1
  let main_c : IVec S_ 1 := constantI S_ 1 1#1
  let main_v3 : IVec S_ 1 := (fun x v => Host.reduce IntOp.andi x v reducesTo_S8x2048x4_S_d0_1_2 h_S_) main_v2 main_c
  let main_v4 : FVec F S8x2048x4 .f32 := Host.absf main_arg1
  let main_cst_0 : FVec F S_ .f32 := constant S_ .f32 0x7F800000#32
  let main_v5 : FVec F S8x2048x4 .f32 := broadcastInDim S8x2048x4 ![] bcast_S_S8x2048x4 main_cst_0
  let main_v6 : IVec S8x2048x4 1 := cmpf .olt main_v4 main_v5
  let main_c_1 : IVec S_ 1 := constantI S_ 1 1#1
  let main_v7 : IVec S_ 1 := (fun x v => Host.reduce IntOp.andi x v reducesTo_S8x2048x4_S_d0_1_2 h_S_) main_v6 main_c_1
  let main_v8 : IVec S_ 1 := andi main_v3 main_v7
  let main_v9 : FVec F S8x2048x4 .f32 := Host.absf main_arg2
  let main_cst_2 : FVec F S_ .f32 := constant S_ .f32 0x7F800000#32
  let main_v10 : FVec F S8x2048x4 .f32 := broadcastInDim S8x2048x4 ![] bcast_S_S8x2048x4 main_cst_2
  let main_v11 : IVec S8x2048x4 1 := cmpf .olt main_v9 main_v10
  let main_c_3 : IVec S_ 1 := constantI S_ 1 1#1
  let main_v12 : IVec S_ 1 := (fun x v => Host.reduce IntOp.andi x v reducesTo_S8x2048x4_S_d0_1_2 h_S_) main_v11 main_c_3
  let main_v13 : IVec S_ 1 := andi main_v8 main_v12
  let main_v14 : FVec F S8x2048x4 .f32 := Host.absf main_arg3
  let main_cst_4 : FVec F S_ .f32 := constant S_ .f32 0x7F800000#32
  let main_v15 : FVec F S8x2048x4 .f32 := broadcastInDim S8x2048x4 ![] bcast_S_S8x2048x4 main_cst_4
  let main_v16 : IVec S8x2048x4 1 := cmpf .olt main_v14 main_v15
  fn_part1 (F := F) main_v13 main_v16
-- ==== Kernel.lean ====
abbrev S8x2048x4 : Shape := ⟨3, ![8, 2048, 4]⟩
abbrev S8 : Shape := ⟨1, ![8]⟩
abbrev S8x64x4 : Shape := ⟨3, ![8, 64, 4]⟩
abbrev S8x2048 : Shape := ⟨2, ![8, 2048]⟩
abbrev S8x1 : Shape := ⟨2, ![8, 1]⟩
abbrev S8x64 : Shape := ⟨2, ![8, 64]⟩
abbrev S8x64x2048 : Shape := ⟨3, ![8, 64, 2048]⟩
abbrev S8x1x2048 : Shape := ⟨3, ![8, 1, 2048]⟩
abbrev S8x64x1 : Shape := ⟨3, ![8, 64, 1]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x4, .f32⟩
  | .hbm, ⟨1, _⟩ => ⟨S8x2048x4, .f32⟩
  | .hbm, ⟨2, _⟩ => ⟨S8x2048x4, .f32⟩
  | .hbm, ⟨3, _⟩ => ⟨S8x2048x4, .f32⟩
  | .hbm, ⟨4, _⟩ => ⟨S8, .f32⟩
  | .local _ .vmem, ⟨0, _⟩ => ⟨S8x64x4, .f32⟩
  | .local _ .vmem, ⟨1, _⟩ => ⟨S8x64x4, .f32⟩
  | .local _ .vmem, ⟨2, _⟩ => ⟨S8x64x4, .f32⟩
  | .local _ .vmem, ⟨3, _⟩ => ⟨S8x64x4, .f32⟩
  | .local _ .vmem, ⟨4, _⟩ => ⟨S8x2048x4, .f32⟩
  | .local _ .vmem, ⟨5, _⟩ => ⟨S8x2048x4, .f32⟩
  | .local _ .vmem, ⟨6, _⟩ => ⟨S8, .f32⟩
  | .local _ .vmem, ⟨7, _⟩ => ⟨S8x2048, .f32⟩
  | .local _ .vmem, ⟨8, _⟩ => ⟨S8x1, .f32⟩
  | _, _ => ⟨S8x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v52 : BitVec 1 := Scalar.cmpi .eq arg0 c31_i32
  let v53 : BitVec 32 := Scalar.extui v52
  let c0_i32_32 : BitVec 32 := 0#32
  let v54 : BitVec 1 := Scalar.cmpi .ne v53 c0_i32_32
  v54

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8x64x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x64x4_S8x64x4_0_0_0 : ∀ a, (![0, 0, 0] : Fin 3 → Nat) a + S8x64x4.size a ≤ S8x64x4.size a
  h_S8x64x4 : 0 < S8x64x4.numel
  inb_S8x2048x4_S8x2048x4_0_0_0 : ∀ a, (![0, 0, 0] : Fin 3 → Nat) a + S8x2048x4.size a ≤ S8x2048x4.size a
  h_S8x2048x4 : 0 < S8x2048x4.numel
  reduces_S8x64x4_S8x64 : S8x64x4.Reduces [2] S8x64
  reduces_S8x2048x4_S8x2048 : S8x2048x4.Reduces [2] S8x2048
  shapeCasts_S8x2048_S8x1x2048 : S8x2048.ShapeCasts S8x1x2048
  broadcasts_S8x1x2048_S8x64x2048 : S8x1x2048.Broadcasts S8x64x2048
  shapeCasts_S8x64_S8x64x1 : S8x64.ShapeCasts S8x64x1
  broadcasts_S8x64x1_S8x64x2048 : S8x64x1.Broadcasts S8x64x2048
  reduces_S8x64x2048_S8x64 : S8x64x2048.Reduces [2] S8x64
  reduces_S8x64_S8 : S8x64.Reduces [1] S8
  shapeCasts_S8_S8x1 : S8.ShapeCasts S8x1
  reduces_S8x64x2048_S8x2048 : S8x64x2048.Reduces [1] S8x2048
  reduces_S8x2048_S8 : S8x2048.Reduces [1] S8
  shapeCasts_S8x1_S8 : S8x1.ShapeCasts S8
  inb_S8_S8_0 : ∀ a, (![0] : Fin 1 → Nat) a + S8.size a ≤ S8.size a
  h_S8 : 0 < S8.numel
  dot_S8x64x4_S8x2048x4_S8x64x2048_2_2_1_1_0_0_wf : DotDims.WF S8x64x4 S8x2048x4 S8x64x2048 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x4.size a ≤ S8x2048x4.size a
  hwx0_0 : ∀ i : grid0.Coords, EltTy.bits .f32 = 32 ∨ (Rect.block (s := S8x2048x4) S8x64x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x4.size a ≤ S8x2048x4.size a
  hwx0_1 : ∀ i : grid0.Coords, EltTy.bits .f32 = 32 ∨ (Rect.block (s := S8x2048x4) S8x64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048x4.size a ≤ S8x2048x4.size a
  hwx0_2 : ∀ i : grid0.Coords, EltTy.bits .f32 = 32 ∨ (Rect.block (s := S8x2048x4) S8x2048x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x2048x4.size a ≤ S8x2048x4.size a
  hwx0_3 : ∀ i : grid0.Coords, EltTy.bits .f32 = 32 ∨ (Rect.block (s := S8x2048x4) S8x2048x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)

variable [Facts₀]

def dot_S8x64x4_S8x2048x4_S8x64x2048_2_2_1_1_0_0 : DotDims S8x64x4 S8x2048x4 S8x64x2048 where
  lhsContracting := [2]
  rhsContracting := [2]
  lhsNonContracting := [1]
  rhsNonContracting := [1]
  lhsBatch := [0]
  rhsBatch := [0]
  wf := dot_S8x64x4_S8x2048x4_S8x64x2048_2_2_1_1_0_0_wf

abbrev win0_0 : Pipeline.Window sig grid0 :=
  Pipeline.Window.ofSpec (Memref.whole main_arg0) S8x64x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x2048x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x2048x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x4 : Shape := ⟨3, ![8, 2048, 4]⟩
abbrev S_ : Shape := ⟨0, ![]⟩
abbrev S8x2048 : Shape := ⟨2, ![8, 2048]⟩
abbrev S8x2048x2048 : Shape := ⟨3, ![8, 2048, 2048]⟩
abbrev S8x1x2048 : Shape := ⟨3, ![8, 1, 2048]⟩
abbrev S8x2048x1 : Shape := ⟨3, ![8, 2048, 1]⟩
abbrev S8 : Shape := ⟨1, ![8]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x4, .f32⟩
  | .hbm, ⟨1, _⟩ => ⟨S8x2048x4, .f32⟩
  | .hbm, ⟨2, _⟩ => ⟨S8x2048x4, .f32⟩
  | .hbm, ⟨3, _⟩ => ⟨S8x2048x4, .f32⟩
  | .hbm, ⟨4, _⟩ => ⟨S8x2048x4, .f32⟩
  | .hbm, ⟨5, _⟩ => ⟨S8x2048x4, .f32⟩
  | .hbm, ⟨6, _⟩ => ⟨S_, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048x4, .f32⟩
  | .hbm, ⟨11, _⟩ => ⟨S8x2048x2048, .f32⟩
  | .hbm, ⟨12, _⟩ => ⟨S8x2048x4, .f32⟩
  | .hbm, ⟨13, _⟩ => ⟨S8x2048x2048, .f32⟩
  | .hbm, ⟨14, _⟩ => ⟨S8x2048x4, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x4, .f32⟩
  | .hbm, ⟨21, _⟩ => ⟨S8x2048x4, .f32⟩
  | .hbm, ⟨22, _⟩ => ⟨S_, .f32⟩
  | .hbm, ⟨23, _⟩ => ⟨S8x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x1x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8, .f32⟩
  | .hbm, ⟨44, _⟩ => ⟨S_, .f32⟩
  | .hbm, ⟨45, _⟩ => ⟨S8x2048, .f32⟩
  | .hbm, ⟨46, _⟩ => ⟨S_, .f32⟩
  | .hbm, ⟨47, _⟩ => ⟨S8, .f32⟩
  | .hbm, ⟨48, _⟩ => ⟨S8, .f32⟩
  | _, _ => ⟨S8x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  reducesTo_S8x2048x4_S8x2048_d2 : S8x2048x4.ReducesTo [2] S8x2048
  h_S_ : 0 < S_.numel
  bcast_S_S8x2048x2048 : S_.BroadcastsInDim S8x2048x2048 (![] : Fin 0 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  reducesTo_S8x2048x2048_S8x2048_d1 : S8x2048x2048.ReducesTo [1] S8x2048
  reducesTo_S8x2048_S8_d1 : S8x2048.ReducesTo [1] S8
  reducesTo_S8x2048x2048_S8x2048_d2 : S8x2048x2048.ReducesTo [2] S8x2048
  dot_S8x2048x4_S8x2048x4_S8x2048x2048_2_2_1_1_0_0_wf : DotDims.WF S8x2048x4 S8x2048x4 S8x2048x2048 [2] [2] [1] [1] [0] [0]

variable [Facts₀]

def dot_S8x2048x4_S8x2048x4_S8x2048x2048_2_2_1_1_0_0 : DotDims S8x2048x4 S8x2048x4 S8x2048x2048 where
  lhsContracting := [2]
  rhsContracting := [2]
  lhsNonContracting := [1]
  rhsNonContracting := [1]
  lhsBatch := [0]
  rhsBatch := [0]
  wf := dot_S8x2048x4_S8x2048x4_S8x2048x2048_2_2_1_1_0_0_wf

class Facts : Prop extends Facts₀ where

variable [Facts]
-- ==== Proof.KernelPieces.lean ====
/-
  What the kernel body leaves behind at a grid point, as values.
-/
import proofs.«121429_j72688026517737_1_alg».proof.Proof.Gen.KernelIdeal.Value
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

variable (c : Dev nD) (i : grid0.Coords) (arg1 : Memref sig .tc .vmem S8x64x4 .f32) (harg1 : arg1.IsWhole)
  (arg2 : Memref sig .tc .vmem S8x64x4 .f32) (harg2 : arg2.IsWhole) (arg3 : Memref sig .tc .vmem S8x2048x4 .f32) (harg3 : arg3.IsWhole)
  (arg4 : Memref sig .tc .vmem S8x2048x4 .f32) (harg4 : arg4.IsWhole) (arg5 : Memref sig .tc .vmem S8 .f32) (harg5 : arg5.IsWhole)
  (arg6 : Memref sig .tc .vmem S8x2048 .f32) (harg6 : arg6.IsWhole) (arg7 : Memref sig .tc .vmem S8x1 .f32) (harg7 : arg7.IsWhole)
  (x0 x1 : Vec F S8x64x4 .f32) (x2 x3 : Vec F S8x2048x4 .f32) (xs0 : Vec F S8x2048 .f32) (xs1 : Vec F S8x1 .f32)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## What each control case leaves in the two carried buffers and in the result block

The first point resets both carried buffers (the running column minimum to the top element, the running sum to zero)
and then updates them; every later point updates them over what the point before left; the last point, after its
update, also writes the result block from the two updated buffers. Each buffer is stored whole, so what a case
leaves in it is the stored value itself, a function of the point's four input blocks and of the carried contents. -/

/-- The running column minimum after the first point: the update over the freshly stored top elements. -/
theorem colBuf_first (hc0 : cond0_0 i) (hc1 : ¬cond0_1 i) :
    sout0_A_0 c i arg1 harg1 arg2 harg2 arg3 harg3 arg4 harg4 arg5 harg5 arg6 harg6 arg7 harg7 hc0 hc1 x0 x1 x2 x3
      = k0_pay3 (k0_pay8 x0 x2 x3) (k0_pay9 x1 x3) k0_pay5 := by
  unfold sout0_A_0
  rw [View.read_writes_eq_canon _ _ _ (scover0_A_0 c i arg1 harg1 arg2 harg2 arg3 harg3 arg4 harg4 arg5 harg5 arg6 harg6 arg7 harg7 hc0 hc1 x0 x1 x2 x3)]
  unfold kernelRun0_A
  dsimp only
  sl_unfold_words
  rw [View.canon_cons_unit_zero (S := S8x2048) hz2]
  simp only [View.readAt_eq_ld, harg1.read_unread, harg2.read_unread, harg3.read_unread, harg4.read_unread, harg6.read_unread, harg7.read_unread,
    View.ld_unit_zero (S := S8x64x4) hz3, View.ld_unit_zero (S := S8x2048x4) hz3, View.ld_unit_zero (S := S8x2048) hz2, View.ld_unit_zero (S := S8x1) hz2,
    View.readCov_unit_zero (S := S8x2048) _ hz2, View.readCov_unit_zero (S := S8x1) _ hz2]

/-- The running sum after the first point: the update over the freshly stored zeros. -/
theorem sumBuf_first (hc0 : cond0_0 i) (hc1 : ¬cond0_1 i) :
    sout0_A_1 c i arg1 harg1 arg2 harg2 arg3 harg3 arg4 harg4 arg5 harg5 arg6 harg6 arg7 harg7 hc0 hc1 x0 x1 x2 x3
      = k0_pay2 (k0_pay8 x0 x2 x3) (k0_pay9 x1 x3) k0_pay6 := by
  unfold sout0_A_1
  rw [View.read_writes_eq_canon _ _ _ (scover0_A_1 c i arg1 harg1 arg2 harg2 arg3 harg3 arg4 harg4 arg5 harg5 arg6 harg6 arg7 harg7 hc0 hc1 x0 x1 x2 x3)]
  unfold kernelRun0_A
  dsimp only
  sl_unfold_words
  rw [View.canon_cons_unit_zero (S := S8x1) hz2]
  simp only [View.readAt_eq_ld, harg1.read_unread, harg2.read_unread, harg3.read_unread, harg4.read_unread, harg6.read_unread, harg7.read_unread,
    View.ld_unit_zero (S := S8x64x4) hz3, View.ld_unit_zero (S := S8x2048x4) hz3, View.ld_unit_zero (S := S8x2048) hz2, View.ld_unit_zero (S := S8x1) hz2,
    View.readCov_unit_zero (S := S8x2048) _ hz2, View.readCov_unit_zero (S := S8x1) _ hz2]

/-- The running column minimum after a middle point: the update over the carried contents. -/
theorem colBuf_mid (hc0 : ¬cond0_0 i) (hc1 : ¬cond0_1 i) :
    sout0_B_0 c i arg1 harg1 arg2 harg2 arg3 harg3 arg4 harg4 arg5 harg5 arg6 harg6 arg7 harg7 hc0 hc1 x0 x1 x2 x3 xs0 xs1
      = k0_pay3 (k0_pay8 x0 x2 x3) (k0_pay9 x1 x3) xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 xs0 xs1)]
  unfold kernelRun0_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S8x64x4) hz3, View.ld_unit_zero (S := S8x2048x4) hz3, View.ld_unit_zero (S := S8x2048) hz2, View.ld_unit_zero (S := S8x1) hz2,
    View.readCov_unit_zero (S := S8x2048) _ hz2, View.readCov_unit_zero (S := S8x1) _ hz2]

/-- The running sum after a middle point. -/
theorem sumBuf_mid (hc0 : ¬cond0_0 i) (hc1 : ¬cond0_1 i) :
    sout0_B_1 c i arg1 harg1 arg2 harg2 arg3 harg3 arg4 harg4 arg5 harg5 arg6 harg6 arg7 harg7 hc0 hc1 x0 x1 x2 x3 xs0 xs1
      = k0_pay2 (k0_pay8 x0 x2 x3) (k0_pay9 x1 x3) xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 x3 xs0 xs1)]
  unfold kernelRun0_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S8x64x4) hz3, View.ld_unit_zero (S := S8x2048x4) hz3, View.ld_unit_zero (S := S8x2048) hz2, View.ld_unit_zero (S := S8x1) hz2,
    View.readCov_unit_zero (S := S8x2048) _ hz2, View.readCov_unit_zero (S := S8x1) _ hz2]

/-- The running column minimum after the last point. -/
theorem colBuf_last (hc0 : ¬cond0_0 i) (hc1 : cond0_1 i) :
    sout0_C_0 c i arg1 harg1 arg2 harg2 arg3 harg3 arg4 harg4 arg5 harg5 arg6 harg6 arg7 harg7 hc0 hc1 x0 x1 x2 x3 xs0 xs1
      = k0_pay3 (k0_pay8 x0 x2 x3) (k0_pay9 x1 x3) xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero hz2]
  simp only [View.readAt_eq_ld, harg1.read_unread, harg2.read_unread, harg3.read_unread, harg4.read_unread, harg6.read_unread, harg7.read_unread,
    View.ld_unit_zero (S := S8x64x4) hz3, View.ld_unit_zero (S := S8x2048x4) hz3, View.ld_unit_zero (S := S8x2048) hz2, View.ld_unit_zero (S := S8x1) hz2,
    View.readCov_unit_zero (S := S8x2048) _ hz2, View.readCov_unit_zero (S := S8x1) _ hz2]

/-- The running sum after the last point. -/
theorem sumBuf_last (hc0 : ¬cond0_0 i) (hc1 : cond0_1 i) :
    sout0_C_1 c i arg1 harg1 arg2 harg2 arg3 harg3 arg4 harg4 arg5 harg5 arg6 harg6 arg7 harg7 hc0 hc1 x0 x1 x2 x3 xs0 xs1
      = k0_pay2 (k0_pay8 x0 x2 x3) (k0_pay9 x1 x3) xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero hz2]
  simp only [View.readAt_eq_ld, harg1.read_unread, harg2.read_unread, harg3.read_unread, harg4.read_unread, harg6.read_unread, harg7.read_unread,
    View.ld_unit_zero (S := S8x64x4) hz3, View.ld_unit_zero (S := S8x2048x4) hz3, View.ld_unit_zero (S := S8x2048) hz2, View.ld_unit_zero (S := S8x1) hz2,
    View.readCov_unit_zero (S := S8x2048) _ hz2, View.readCov_unit_zero (S := S8x1) _ hz2]

/-- The result block the last point writes: the final combination of the two buffers as that point has just updated them. -/
theorem result_last (hc0 : ¬cond0_0 i) (hc1 : cond0_1 i) :
    out0_C_4 c i arg1 harg1 arg2 harg2 arg3 harg3 arg4 harg4 arg5 harg5 arg6 harg6 arg7 harg7 hc0 hc1 x0 x1 x2 x3 xs0 xs1
      = k0_pay4 (k0_pay3 (k0_pay8 x0 x2 x3) (k0_pay9 x1 x3) xs0) (k0_pay2 (k0_pay8 x0 x2 x3) (k0_pay9 x1 x3) xs1) := by
  unfold out0_C_4
  rw [View.read_writes_eq_canon _ _ _ (cover0_C_4 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero hz1]
  simp only [View.readAt_eq_ld, harg1.read_unread, harg2.read_unread, harg3.read_unread, harg4.read_unread, harg6.read_unread, harg7.read_unread,
    View.ld_unit_zero (S := S8x64x4) hz3, View.ld_unit_zero (S := S8x2048x4) hz3, View.ld_unit_zero (S := S8x2048) hz2, View.ld_unit_zero (S := S8x1) hz2,
    View.readCov_unit_zero (S := S8x2048) _ hz2, View.readCov_unit_zero (S := S8x1) _ hz2]

end Cert.KernelIdeal.Pieces

end
-- ==== Proof.Spec.lean ====
/-
  The Chamfer loss between two clouds of diagonal Gaussians under the Kullback–Leibler divergence, on the extended reals.

  Four arrays of shape [8, 2048, 4]: batch × point × coordinate — the means and log-variances of the source points
  (`mp`, `lp`) and of the target points (`mg`, `lg`). For a source point `i` and a target point `j` of batch `b`

      pkl b i j = -½ · ((((4 + Σ_d lp) − Σ_d lg) − Σ_d e^{lp}·e^{−lg}) − ((Σ_d mp²·e^{−lg} − 2·Σ_d mp·(mg·e^{−lg})) + Σ_d mg²·e^{−lg})),

  the sums over the four coordinates, and the loss of batch `b` is

      loss b = Σ_j min_i pkl b i j  +  Σ_i min_j pkl b i j.

  Both minima are folds of `min` from the top element and both sums are sums in a commutative monoid, so they may be
  taken block by block: the 2048 source points are 32 consecutive blocks of 64, the minimum over all source points is
  the minimum over the blocks of each block's minimum (`foldMin_blocks`), and the sum over all source points is the
  sum over the blocks of each block's sum (`sum_blocks`). `colAcc n` and `rowAcc n` are the two running values after
  the first `n` blocks; after all 32 they are the column minimum and the sum of the row minima. No law used here
  needs a finite value: only commutativity and associativity of `min` and of `+`.
-/
import Idealize.ShloMosaic.PureOps.Ideal.Laws
import Idealize.ShloMosaic.Lib.ValueIdx

noncomputable section

namespace Cert.Chamfer

open Idealize.ShloMosaic Idealize.ShloMosaic.ValueIdx

/-- An argument array: batch × point × coordinate. -/
abbrev Pts : Type := (⟨3, ![8, 2048, 4]⟩ : Shape).Idx → EReal

/-- The three float literals both programs print, kept as their patterns: −½, 2 and 4. -/
abbrev cHalf : EReal := Ideal.ofBits .f32 0xBF000000#32
abbrev cTwo : EReal := Ideal.ofBits .f32 0x40000000#32
abbrev cFour : EReal := Ideal.ofBits .f32 0x40800000#32

/-! ## Blocks of 64 among 2048 -/

/-- Point `r` of block `n`: the point `64·n + r` (reduced modulo 2048, so that the term is total in `n`). -/
def blockPt (n : ℕ) (r : Fin 64) : Fin 2048 := ⟨(64 * n + r.val) % 2048, Nat.mod_lt _ (by norm_num)⟩

theorem blockPt_val {n : ℕ} (hn : n < 32) (r : Fin 64) : (blockPt n r).val = 64 * n + r.val := by
  have := r.isLt
  show (64 * n + r.val) % 2048 = _
  omega

/-- Every point is point `i % 64` of block `i / 64`. -/
theorem blockPt_div_mod (i : Fin 2048) : blockPt (i.val / 64) ⟨i.val % 64, Nat.mod_lt _ (by norm_num)⟩ = i := by
  have := i.isLt
  refine Fin.ext ?_
  rw [blockPt_val (by omega)]
  show 64 * (i.val / 64) + i.val % 64 = i.val
  omega

/-- A minimum over all 2048 points is the minimum over the 32 blocks of each block's minimum. -/
theorem foldMin_blocks (f : Fin 2048 → EReal) :
    Finset.univ.fold min ⊤ f
      = (Finset.range 32).fold min ⊤ fun n => Finset.univ.fold min ⊤ fun r : Fin 64 => f (blockPt n r) := by
  refine eq_of_forall_le_iff fun c => ?_
  simp only [Finset.le_fold_min, le_top, true_and, Finset.mem_univ, Finset.mem_range, forall_const]
  constructor
  · intro h n _ r; exact h _
  · intro h i
    have hi := i.isLt
    have := h (i.val / 64) (by omega) ⟨i.val % 64, Nat.mod_lt _ (by norm_num)⟩
    rwa [blockPt_div_mod] at this

/-- A sum over all 2048 points is the sum over the 32 blocks of each block's sum. -/
theorem sum_blocks (f : Fin 2048 → EReal) :
    ∑ i, f i = ∑ n ∈ Finset.range 32, ∑ r : Fin 64, f (blockPt n r) := by
  rw [Finset.sum_range fun n => ∑ r : Fin 64, f (blockPt n r)]
  rw [← Fintype.sum_prod_type' (fun (n : Fin 32) (r : Fin 64) => f (blockPt n.val r))]
  refine (Fintype.sum_equiv (finProdFinEquiv (m := 32) (n := 64)) _ f fun p => congrArg f (Fin.ext ?_)).symm
  rw [blockPt_val p.1.isLt]
  show 64 * p.1.val + p.2.val = p.2.val + 64 * p.1.val
  omega

/-! ## The divergence and the loss -/

variable (mp lp mg lg : Pts)

/-- The reciprocal variance of coordinate `d` of target point `j`. -/
def ivar (b : Fin 8) (j : Fin 2048) (d : Fin 4) : EReal := Ideal.exp (-(lg (ix3 b j d)))

/-- The divergence from source point `i` to target point `j`, summed over the coordinates. -/
def pkl (b : Fin 8) (i j : Fin 2048) : EReal :=
  cHalf * ((((cFour + ∑ d : Fin 4, lp (ix3 b i d)) - ∑ d : Fin 4, lg (ix3 b j d))
      - ∑ d : Fin 4, Ideal.exp (lp (ix3 b i d)) * ivar lg b j d)
    - (((∑ d : Fin 4, (mp (ix3 b i d) * mp (ix3 b i d)) * ivar lg b j d)
        - cTwo * ∑ d : Fin 4, mp (ix3 b i d) * (mg (ix3 b j d) * ivar lg b j d))
      + ∑ d : Fin 4, (mg (ix3 b j d) * mg (ix3 b j d)) * ivar lg b j d))

/-- The same divergence from the eight numbers it depends on: the four coordinates' means and log-variances of the source
    point (`a`, `la`) and of the target point (`g`, `lgv`). -/
def pklPair (a la g lgv : Fin 4 → EReal) : EReal :=
  cHalf * ((((cFour + ∑ d : Fin 4, la d) - ∑ d : Fin 4, lgv d)
      - ∑ d : Fin 4, Ideal.exp (la d) * Ideal.exp (-(lgv d)))
    - (((∑ d : Fin 4, (a d * a d) * Ideal.exp (-(lgv d)))
        - cTwo * ∑ d : Fin 4, a d * (g d * Ideal.exp (-(lgv d))))
      + ∑ d : Fin 4, (g d * g d) * Ideal.exp (-(lgv d))))

theorem pkl_eq_pair (b : Fin 8) (i j : Fin 2048) :
    pkl mp lp mg lg b i j
      = pklPair (fun d => mp (ix3 b i d)) (fun d => lp (ix3 b i d)) (fun d => mg (ix3 b j d)) (fun d => lg (ix3 b j d)) := rfl

/-- The least divergence from source point `i` to a target point. -/
def rowMin (b : Fin 8) (i : Fin 2048) : EReal := Finset.univ.fold min ⊤ fun j : Fin 2048 => pkl mp lp mg lg b i j

/-- The least divergence from a source point to target point `j`. -/
def colMin (b : Fin 8) (j : Fin 2048) : EReal := Finset.univ.fold min ⊤ fun i : Fin 2048 => pkl mp lp mg lg b i j

/-- The loss of batch `b`: the column minima summed, plus the row minima summed. -/
def loss (b : Fin 8) : EReal := (∑ j : Fin 2048, colMin mp lp mg lg b j) + ∑ i : Fin 2048, rowMin mp lp mg lg b i

/-- The loss as an array over the batches. -/
def lossVec : (⟨1, ![8]⟩ : Shape).Idx → EReal := fun y => loss mp lp mg lg (y 0)

/-! ## The two running values, block by block -/

/-- The least divergence to target point `j` from a source point of block `n`. -/
def blockColMin (n : ℕ) (b : Fin 8) (j : Fin 2048) : EReal :=
  Finset.univ.fold min ⊤ fun r : Fin 64 => pkl mp lp mg lg b (blockPt n r) j

/-- The row minima of block `n`'s source points, summed. -/
def blockRowSum (n : ℕ) (b : Fin 8) : EReal := ∑ r : Fin 64, rowMin mp lp mg lg b (blockPt n r)

/-- The running column minimum after the first `n` blocks. -/
def colAcc (n : ℕ) (b : Fin 8) (j : Fin 2048) : EReal := (Finset.range n).fold min ⊤ fun t => blockColMin mp lp mg lg t b j

/-- The running sum of row minima after the first `n` blocks. -/
def rowAcc (n : ℕ) (b : Fin 8) : EReal := ∑ t ∈ Finset.range n, blockRowSum mp lp mg lg t b

theorem colAcc_zero (b : Fin 8) (j : Fin 2048) : colAcc mp lp mg lg 0 b j = ⊤ := rfl

theorem colAcc_succ (n : ℕ) (b : Fin 8) (j : Fin 2048) :
    colAcc mp lp mg lg (n + 1) b j = min (colAcc mp lp mg lg n b j) (blockColMin mp lp mg lg n b j) := by
  unfold colAcc
  rw [Finset.range_add_one, Finset.fold_insert Finset.notMem_range_self, min_comm]

theorem rowAcc_zero (b : Fin 8) : rowAcc mp lp mg lg 0 b = 0 := rfl

theorem rowAcc_succ (n : ℕ) (b : Fin 8) :
    rowAcc mp lp mg lg (n + 1) b = rowAcc mp lp mg lg n b + blockRowSum mp lp mg lg n b :=
  Finset.sum_range_succ _ n

/-- After all 32 blocks the running column minimum is the column minimum. -/
theorem colAcc_all (b : Fin 8) (j : Fin 2048) : colAcc mp lp mg lg 32 b j = colMin mp lp mg lg b j :=
  (foldMin_blocks fun i => pkl mp lp mg lg b i j).symm

/-- After all 32 blocks the running sum is the sum of all row minima. -/
theorem rowAcc_all (b : Fin 8) : rowAcc mp lp mg lg 32 b = ∑ i : Fin 2048, rowMin mp lp mg lg b i :=
  (sum_blocks fun i => rowMin mp lp mg lg b i).symm

end Cert.Chamfer

end
-- ==== Proof.LibMinReduce.lean ====
/-
  A minimum taken along ONE axis, read at a result index on the extended reals.

  A vector reduction with the minimum as its body, and the host's reduce with the same body, both visit the source indices
  that drop to the result index in row-major order. The minimum commutes and associates, so either is the fold of `min`
  over that axis's coordinates, started from the value the accumulator (or the initial value) denotes; and the pattern
  `0x7F800000` denotes the top element, the neutral value of `min`.
-/
import Idealize.ShloMosaic.PureOps.Ideal.Laws
import Idealize.ShloMosaic.PureOps.Reduce

namespace Cert.MinReduce

open Idealize.ShloMosaic

variable {φ : FTy}

/-- A vector minimum-reduction over one axis, at the extended reals: the fold of `min`, from the accumulator's value, over the
    reduced axis's coordinates inserted into the result index. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's reduce with a minimum body over one axis, at the extended reals: the same fold, from the initial value's element. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

/-- The f32 pattern of positive infinity is the top of the extended reals. -/
theorem ofBits_inf_f32 : Ideal.ofBits .f32 0x7F800000#32 = ⊤ := by simp [Ideal.ofBits, Ideal.ieee]

end Cert.MinReduce
-- ==== Proof.LibRank3.lean ====
/-
  Rank-3 arrays read at coordinates: the layout steps between a rank-2 array and a rank-3 one with a unit axis, and
  reductions of a rank-3 array along its last or its middle axis.

  • an `[a, b]` array viewed as `[a, 1, b]` or as `[a, b, 1]` reads, at any unit coordinate, the array at `(p, q)`;
  • an `[a, 1, b]` array broadcast to `[a, c, b]` reads, at `(p, r, q)`, the operand at `(p, 0, q)`; an `[a, b, 1]` array
    broadcast to `[a, b, c]` reads, at `(p, q, r)`, the operand at `(p, q, 0)`;
  • an `[a, 1]` column viewed as an `[a]` vector reads, at `p`, the column at `(p, 0)`;
  • on the extended reals, a sum along the last axis from the zero word is the sum over that axis's coordinates, and a
    minimum along the last or the middle axis from the pattern of positive infinity is the fold of `min` from the top
    element over that axis's coordinates.
-/
import Idealize.ShloMosaic.Lib.Pipeline.Value
import Idealize.ShloMosaic.Lib.ValueIdx
import Idealize.ShloMosaic.PureOps.Ideal.Laws
import proofs.«121429_j72688026517737_1_alg».proof.Proof.LibMinReduce

namespace Cert.Rank3

open Idealize.ShloMosaic Idealize.ShloMosaic.ValueIdx Cert.MinReduce

variable {α : Type}

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1]` column cast to an `[a]` vector reads, at `p`, the column's entry of row `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1, b]` array broadcast to `[a, c, b]` reads, at `(p, r, q)`, the operand at `(p, 0, q)`. -/
theorem broadcastTo_a1b_acb_apply {a b c : ℕ} (v : (⟨3, ![a, 1, b]⟩ : Shape).Idx → α)
    (h : (⟨3, ![a, 1, b]⟩ : Shape).Broadcasts ⟨3, ![a, c, b]⟩) (p : Fin a) (r : Fin c) (q : Fin b) :
    broadcastTo ⟨3, ![a, c, b]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- On the extended reals, the sum of an `[a, b, c]` array along its last axis, from the zero word, reads at `(p, q)` the
    sum over `k` of the entries `(p, q, k)`. -/
theorem lastSum_apply {a b c : ℕ} (src : FVec Ideal ⟨3, ![a, b, c]⟩ .f32)
    (h : (⟨3, ![a, b, c]⟩ : Shape).Reduces [2] ⟨2, ![a, b]⟩) (hφ : FKind.Formats FTy.f32)
    (hacc : (0x00000000#32 : BitVec 32) = 0x00000000#32) (p : Fin a) (q : Fin b) :
    multiReduction (F := Ideal) .add [2] ⟨2, ![a, b]⟩ src 0x00000000#32 h hφ hacc (ix2 p q) = ∑ k : Fin c, src (ix3 p q k) :=
  (Ideal.multiReduction_add_single src 0x00000000#32 h hφ hacc (ix2 p q)).trans
    (Finset.sum_congr rfl fun k _ => congrArg src (funext fun ax => Fin.ext (by
      match ax with
      | ⟨0, _⟩ => rfl
      | ⟨1, _⟩ => rfl
      | ⟨2, _⟩ => rfl)))

/-- On the extended reals, the minimum of an `[a, b, c]` array along its last axis, from the pattern of positive infinity, reads
    at `(p, q)` the fold of `min` from the top element over the entries `(p, q, k)`. -/
theorem lastMin_apply {a b c : ℕ} (src : FVec Ideal ⟨3, ![a, b, c]⟩ .f32)
    (h : (⟨3, ![a, b, c]⟩ : Shape).Reduces [2] ⟨2, ![a, b]⟩) (hφ : FKind.Formats FTy.f32)
    (hacc : (0x7F800000#32 : BitVec 32) = 0x7F800000#32) (p : Fin a) (q : Fin b) :
    multiReduction (F := Ideal) .minimumf [2] ⟨2, ![a, b]⟩ src 0x7F800000#32 h hφ hacc (ix2 p q)
      = (Finset.univ : Finset (Fin c)).fold min ⊤ fun k => src (ix3 p q k) := by
  refine (multiReduction_minimumf_single src 0x7F800000#32 h hφ hacc (ix2 p q)).trans ?_
  rw [Ideal.ofBits_def, ofBits_inf_f32]
  exact Finset.fold_congr fun k _ => congrArg src (funext fun ax => Fin.ext (by
    match ax with
    | ⟨0, _⟩ => rfl
    | ⟨1, _⟩ => rfl
    | ⟨2, _⟩ => rfl))

/-- The same along the middle axis: at `(p, q)` the fold of `min` from the top element over the entries `(p, k, q)`. -/
theorem midMin_apply {a b c : ℕ} (src : FVec Ideal ⟨3, ![a, b, c]⟩ .f32)
    (h : (⟨3, ![a, b, c]⟩ : Shape).Reduces [1] ⟨2, ![a, c]⟩) (hφ : FKind.Formats FTy.f32)
    (hacc : (0x7F800000#32 : BitVec 32) = 0x7F800000#32) (p : Fin a) (q : Fin c) :
    multiReduction (F := Ideal) .minimumf [1] ⟨2, ![a, c]⟩ src 0x7F800000#32 h hφ hacc (ix2 p q)
      = (Finset.univ : Finset (Fin b)).fold min ⊤ fun k => src (ix3 p k q) := by
  refine (multiReduction_minimumf_single src 0x7F800000#32 h hφ hacc (ix2 p q)).trans ?_
  rw [Ideal.ofBits_def, ofBits_inf_f32]
  exact Finset.fold_congr fun k _ => congrArg src (funext fun ax => Fin.ext (by
    match ax with
    | ⟨0, _⟩ => rfl
    | ⟨1, _⟩ => rfl
    | ⟨2, _⟩ => rfl))

end Cert.Rank3
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.KernelPayload.lean ====
/-
  The kernel body's arithmetic at one grid point, read at coordinates on the extended reals.

  At a point the body sees a block of 64 source points (means `x0`, log-variances `x1`: [8, 64, 4]) and all 2048 target
  points (means `x2`, log-variances `x3`: [8, 2048, 4]). Its [8, 64, 2048] tile of divergences holds, at `(b, r, j)`, the
  divergence `pklPair` of source row `r` and target point `j` of batch `b`: the three batched products are sums over the
  four coordinates, `0 − x` is `−x`, and the broadcasts only repeat a row or a column. From the tile the body takes a
  minimum along each of its two point axes: the row minima are summed into the running sum, the column minima are merged
  into the running column minimum; the last point adds the summed column minima to the running sum.
-/
import proofs.«121429_j72688026517737_1_alg».proof.Proof.Gen.KernelIdeal.Skeleton
import proofs.«121429_j72688026517737_1_alg».proof.Proof.Spec
import proofs.«121429_j72688026517737_1_alg».proof.Proof.LibRank3
import proofs.«121429_j72688026517737_1_alg».proof.Proof.LibKeepdims
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx
open Cert.Chamfer Cert.MinReduce Cert.Rank3 Cert.Keepdims

/-! ## The batched product, read at an index -/

theorem lhs_0 (i : S8x64x2048.Idx) (q : dot_S8x64x4_S8x2048x4_S8x64x2048_2_2_1_1_0_0.contr.Idx) :
    (dot_S8x64x4_S8x2048x4_S8x64x2048_2_2_1_1_0_0.lhsIdx i q 0).val = (i 0).val := by
  unfold DotDims.lhsIdx
  rw [dif_pos (show (0 : Fin S8x64x4.rank) ∈ dot_S8x64x4_S8x2048x4_S8x64x2048_2_2_1_1_0_0.lhsBatch by decide)]
  rfl
theorem lhs_1 (i : S8x64x2048.Idx) (q : dot_S8x64x4_S8x2048x4_S8x64x2048_2_2_1_1_0_0.contr.Idx) :
    (dot_S8x64x4_S8x2048x4_S8x64x2048_2_2_1_1_0_0.lhsIdx i q 1).val = (i 1).val := by
  unfold DotDims.lhsIdx
  rw [dif_neg (show ¬(1 : Fin S8x64x4.rank) ∈ dot_S8x64x4_S8x2048x4_S8x64x2048_2_2_1_1_0_0.lhsBatch by decide), dif_pos (show (1 : Fin S8x64x4.rank) ∈ dot_S8x64x4_S8x2048x4_S8x64x2048_2_2_1_1_0_0.lhsNonContracting by decide)]
  rfl
theorem lhs_2 (i : S8x64x2048.Idx) (q : dot_S8x64x4_S8x2048x4_S8x64x2048_2_2_1_1_0_0.contr.Idx) :
    (dot_S8x64x4_S8x2048x4_S8x64x2048_2_2_1_1_0_0.lhsIdx i q 2).val = (q ⟨0, by decide⟩).val :=
  dot_S8x64x4_S8x2048x4_S8x64x2048_2_2_1_1_0_0.lhsIdx_val_of_single rfl i q
theorem rhs_0 (i : S8x64x2048.Idx) (q : dot_S8x64x4_S8x2048x4_S8x64x2048_2_2_1_1_0_0.contr.Idx) :
    (dot_S8x64x4_S8x2048x4_S8x64x2048_2_2_1_1_0_0.rhsIdx i q 0).val = (i 0).val := by
  unfold DotDims.rhsIdx
  rw [dif_pos (show (0 : Fin S8x2048x4.rank) ∈ dot_S8x64x4_S8x2048x4_S8x64x2048_2_2_1_1_0_0.rhsBatch by decide)]
  rfl
theorem rhs_1 (i : S8x64x2048.Idx) (q : dot_S8x64x4_S8x2048x4_S8x64x2048_2_2_1_1_0_0.contr.Idx) :
    (dot_S8x64x4_S8x2048x4_S8x64x2048_2_2_1_1_0_0.rhsIdx i q 1).val = (i 2).val := by
  unfold DotDims.rhsIdx
  rw [dif_neg (show ¬(1 : Fin S8x2048x4.rank) ∈ dot_S8x64x4_S8x2048x4_S8x64x2048_2_2_1_1_0_0.rhsBatch by decide), dif_pos (show (1 : Fin S8x2048x4.rank) ∈ dot_S8x64x4_S8x2048x4_S8x64x2048_2_2_1_1_0_0.rhsNonContracting by decide)]
  rfl
theorem rhs_2 (i : S8x64x2048.Idx) (q : dot_S8x64x4_S8x2048x4_S8x64x2048_2_2_1_1_0_0.contr.Idx) :
    (dot_S8x64x4_S8x2048x4_S8x64x2048_2_2_1_1_0_0.rhsIdx i q 2).val = (q ⟨0, by decide⟩).val :=
  dot_S8x64x4_S8x2048x4_S8x64x2048_2_2_1_1_0_0.rhsIdx_val_of_single rfl i q

/-- The batched product into a zero accumulator: at `(b, r, j)` the sum over the four coordinates of row `(b, r)` of the left
    operand times row `(b, j)` of the right one. -/
theorem product_apply (L : FVec Ideal S8x64x4 .f32) (R : FVec Ideal S8x2048x4 .f32) (b : Fin 8) (r : Fin 64) (j : Fin 2048) :
    matmul dot_S8x64x4_S8x2048x4_S8x64x2048_2_2_1_1_0_0 none L R (constant S8x64x2048 .f32 0x00000000#32) (ix3 b r j)
      = ∑ k : Fin 4, L (ix3 b r k) * R (ix3 b j k) := by
  simp only [matmul]
  rw [Ideal.matmul_constant_zero_apply, ← Equiv.sum_comp (ValueIdx.contrEquiv1 dot_S8x64x4_S8x2048x4_S8x64x2048_2_2_1_1_0_0 4 rfl rfl).symm]
  refine Finset.sum_congr rfl fun k _ => ?_
  have hk := ValueIdx.contrEquiv1_symm_val dot_S8x64x4_S8x2048x4_S8x64x2048_2_2_1_1_0_0 4 rfl rfl k
  have el : dot_S8x64x4_S8x2048x4_S8x64x2048_2_2_1_1_0_0.lhsIdx (ix3 b r j) ((ValueIdx.contrEquiv1 dot_S8x64x4_S8x2048x4_S8x64x2048_2_2_1_1_0_0 4 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S8x64x4_S8x2048x4_S8x64x2048_2_2_1_1_0_0.rhsIdx (ix3 b r j) ((ValueIdx.contrEquiv1 dot_S8x64x4_S8x2048x4_S8x64x2048_2_2_1_1_0_0 4 rfl rfl).symm k) = ix3 b j k := funext fun a => Fin.ext (by
    match a with
    | ⟨0, _⟩ => exact rhs_0 _ _
    | ⟨1, _⟩ => exact rhs_1 _ _
    | ⟨2, _⟩ => exact (rhs_2 _ _).trans hk)
  rw [el, er]

/-! ## The tile of divergences -/

variable (x0 x1 : FVec Ideal S8x64x4 .f32) (x2 x3 : FVec Ideal S8x2048x4 .f32)

/-- The reciprocal variances: `e^(0 − x) = e^(−x)`. -/
theorem recipVar_apply (b : Fin 8) (j : Fin 2048) (d : Fin 4) :
    k0_pay7 (F := Ideal) x3 (ix3 b j d) = Ideal.exp (-(x3 (ix3 b j d))) := by
  unfold k0_pay7
  show Ideal.exp (Ideal.ofBits .f32 0x00000000#32 - x3 (ix3 b j d)) = _
  rw [Ideal.ofBits_zero_f32, zero_sub]

/-- The quadratic term at `(b, r, j)`. -/
theorem quad_apply (b : Fin 8) (r : Fin 64) (j : Fin 2048) :
    k0_pay8 (F := Ideal) x0 x2 x3 (ix3 b r j)
      = ((∑ d : Fin 4, (x0 (ix3 b r d) * x0 (ix3 b r d)) * Ideal.exp (-(x3 (ix3 b j d))))
          - cTwo * ∑ d : Fin 4, x0 (ix3 b r d) * (x2 (ix3 b j d) * Ideal.exp (-(x3 (ix3 b j d)))))
        + ∑ d : Fin 4, (x2 (ix3 b j d) * x2 (ix3 b j d)) * Ideal.exp (-(x3 (ix3 b j d))) := by
  unfold k0_pay8
  simp only [addf_apply, subf_apply, mulf_apply, broadcast_apply]
  rw [product_apply, product_apply, broadcastTo_a1b_acb_apply, shapeCast_ab_a1b_apply, lastSum_apply]
  simp only [mulf_apply, recipVar_apply]
  rfl

/-- The remaining terms at `(b, r, j)`: `((4 + Σ la) − Σ lb) − Σ e^{la}·e^{−lb}`. -/
theorem rest_apply (b : Fin 8) (r : Fin 64) (j : Fin 2048) :
    k0_pay9 (F := Ideal) x1 x3 (ix3 b r j)
      = ((cFour + ∑ d : Fin 4, x1 (ix3 b r d)) - ∑ d : Fin 4, x3 (ix3 b j d))
        - ∑ d : Fin 4, Ideal.exp (x1 (ix3 b r d)) * Ideal.exp (-(x3 (ix3 b j d))) := by
  unfold k0_pay9
  simp only [addf_apply, subf_apply, mulf_apply, broadcast_apply]
  rw [product_apply, broadcastTo_ab1_abc_apply, broadcastTo_a1b_acb_apply, shapeCast_ab_a1b_apply, lastSum_apply]
  simp only [addf_apply, broadcast_apply, shapeCast_ab_ab1_apply, recipVar_apply]
  rw [lastSum_apply]
  rfl

/-- The tile of divergences at `(b, r, j)`: the divergence of source row `(b, r)` and target point `(b, j)`. -/
theorem tile_apply (b : Fin 8) (r : Fin 64) (j : Fin 2048) :
    k0_pay1 (F := Ideal) (k0_pay8 x0 x2 x3) (k0_pay9 x1 x3) (ix3 b r j)
      = pklPair (fun d => x0 (ix3 b r d)) (fun d => x1 (ix3 b r d)) (fun d => x2 (ix3 b j d)) (fun d => x3 (ix3 b j d)) := by
  unfold k0_pay1
  simp only [mulf_apply, subf_apply, broadcast_apply]
  rw [quad_apply, rest_apply]
  rfl

/-! ## The stored values, when the blocks are block `n` of the four arrays -/

variable (mp lp mg lg : Pts) (n : ℕ)
  (h0 : ∀ b r d, x0 (ix3 b r d) = mp (ix3 b (blockPt n r) d)) (h1 : ∀ b r d, x1 (ix3 b r d) = lp (ix3 b (blockPt n r) d))
  (h2 : ∀ b j d, x2 (ix3 b j d) = mg (ix3 b j d)) (h3 : ∀ b j d, x3 (ix3 b j d) = lg (ix3 b j d))

include h0 h1 h2 h3 in
/-- Row `r` of the tile is source point `r` of block `n`. -/
theorem tile_eq_pkl (b : Fin 8) (r : Fin 64) (j : Fin 2048) :
    k0_pay1 (F := Ideal) (k0_pay8 x0 x2 x3) (k0_pay9 x1 x3) (ix3 b r j) = pkl mp lp mg lg b (blockPt n r) j := by
  rw [tile_apply, pkl_eq_pair]
  simp only [h0, h1, h2, h3]

include h0 h1 h2 h3 in
/-- The running column minimum is merged with the block's column minimum. -/
theorem colUpdate_apply (xs0 : FVec Ideal S8x2048 .f32) (b : Fin 8) (j : Fin 2048) :
    k0_pay3 (F := Ideal) (k0_pay8 x0 x2 x3) (k0_pay9 x1 x3) xs0 (ix2 b j)
      = min (xs0 (ix2 b j)) (blockColMin mp lp mg lg n b j) := by
  unfold k0_pay3
  rw [shapeCast_self]
  simp only [minimumf_apply]
  rw [midMin_apply]
  unfold blockColMin
  simp only [tile_eq_pkl x0 x1 x2 x3 mp lp mg lg n h0 h1 h2 h3]

include h0 h1 h2 h3 in
/-- The running sum grows by the block's row minima. -/
theorem sumUpdate_apply (xs1 : FVec Ideal S8x1 .f32) (b : Fin 8) (u : Fin 1) :
    k0_pay2 (F := Ideal) (k0_pay8 x0 x2 x3) (k0_pay9 x1 x3) xs1 (ix2 b u)
      = xs1 (ix2 b u) + blockRowSum mp lp mg lg n b := by
  unfold k0_pay2
  rw [shapeCast_self]
  simp only [addf_apply]
  rw [shapeCast_a_a1_apply, rowSum_apply]
  unfold blockRowSum rowMin
  refine congrArg (xs1 (ix2 b u) + ·) (Finset.sum_congr rfl fun r _ => ?_)
  rw [lastMin_apply]
  simp only [tile_eq_pkl x0 x1 x2 x3 mp lp mg lg n h0 h1 h2 h3]

/-- The final combination: the column buffer summed along the target points, plus the sum buffer. -/
theorem final_apply (v55 : FVec Ideal S8x2048 .f32) (v58 : FVec Ideal S8x1 .f32) (b : Fin 8) :
    k0_pay4 (F := Ideal) v55 v58 (ix1 b) = (∑ j : Fin 2048, v55 (ix2 b j)) + v58 (ix2 b (0 : Fin 1)) := by
  unfold k0_pay4
  rw [shapeCast_a1_a_apply]
  simp only [addf_apply]
  rw [shapeCast_a_a1_apply, rowSum_apply]

/-- The reset value of the column buffer is the top element; -/
theorem colReset_apply (y : S8x2048.Idx) : k0_pay5 (F := Ideal) y = ⊤ := by
  unfold k0_pay5
  rw [shapeCast_self]
  exact ofBits_inf_f32

/-- and that of the sum buffer is zero. -/
theorem sumReset_apply (y : S8x1.Idx) : k0_pay6 (F := Ideal) y = 0 := by
  unfold k0_pay6
  rw [shapeCast_self]
  exact Ideal.ofBits_zero_f32

end Cert.KernelIdeal.Payload

end
-- ==== Proof.KernelRun.lean ====
/-
  The kernel's run, read: its result array is the loss of Spec.lean.

  The grid has 32 points; point `t` sees block `t` of the source points (64 of them) and all the target points. Two buffers
  are carried from point to point. After point `n` the first holds, at `(b, j)`, the running column minimum `colAcc (n + 1)`
  and the second, at `(b, 0)`, the running sum of row minima `rowAcc (n + 1)` — by induction on the point: the first point
  merges its block into the top element and into zero, every later point into what the point before left. The last point
  writes the one result block: the column buffer summed along the target points plus the sum buffer, which after all 32
  blocks is the loss. That block is the whole result array.
-/
import proofs.«121429_j72688026517737_1_alg».proof.Proof.Gen.KernelIdeal.Value
import proofs.«121429_j72688026517737_1_alg».proof.Proof.KernelPieces
import proofs.«121429_j72688026517737_1_alg».proof.Proof.KernelPayload

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.Chamfer Cert.KernelIdeal.Pieces Cert.KernelIdeal.Payload

variable (m : (ℓ : Loc nD τ sig) → Buf (Elt Ideal) ℓ) (ρ : Dev nD → PrngReg)

/-! ## The four argument arrays and the blocks a point sees -/

abbrev srcMean (c : Dev nD) : Pts := V m c main_arg0
abbrev srcLogv (c : Dev nD) : Pts := V m c main_arg1
abbrev tgtMean (c : Dev nD) : Pts := V m c main_arg2
abbrev tgtLogv (c : Dev nD) : Pts := V m c main_arg3

/-- The printed index maps, decided over the grid: the source windows move along the point axis with the grid point, the
    target windows stay. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0 :=
  (by decide +kernel : ∀ t : Fin grid0.N, _)

theorem lt32 (t : Fin cfg0.N) : t.val < 32 := lt_of_lt_of_eq t.isLt (show cfg0.N = 32 from N_0)

/-- Row `r` of the source-mean block at point `t` is source point `r` of block `t`. -/
theorem srcMean_block (c : Dev nD) (t : Fin cfg0.N) (b : Fin 8) (r : Fin 64) (d : Fin 4) :
    (iblk m c 0 t : Vec Ideal S8x64x4 .f32) (ix3 b r d) = srcMean m c (ix3 b (blockPt t.val r) d) := by
  obtain ⟨e0, e1, e2, -⟩ := idx_facts t
  show V m c main_arg0 (((cfg0.win 0).blk t).view.emb (ix3 b r d)) = V m c main_arg0 _
  refine congrArg (V m c main_arg0) (funext fun a => Fin.ext ?_)
  match a with
  | ⟨0, _⟩ => show win0_0.index t (0 : Fin 3) * 8 + 1 * b.val = b.val; omega
  | ⟨1, _⟩ => show win0_0.index t (1 : Fin 3) * 64 + 1 * r.val = (blockPt t.val r).val; rw [blockPt_val (lt32 t)]; omega
  | ⟨2, _⟩ => show win0_0.index t (2 : Fin 3) * 4 + 1 * d.val = d.val; omega

theorem srcLogv_block (c : Dev nD) (t : Fin cfg0.N) (b : Fin 8) (r : Fin 64) (d : Fin 4) :
    (iblk m c 1 t : Vec Ideal S8x64x4 .f32) (ix3 b r d) = srcLogv m c (ix3 b (blockPt t.val r) d) := by
  obtain ⟨-, -, -, e0, e1, e2, -⟩ := idx_facts t
  show V m c main_arg1 (((cfg0.win 1).blk t).view.emb (ix3 b r d)) = V m c main_arg1 _
  refine congrArg (V m c main_arg1) (funext fun a => Fin.ext ?_)
  match a with
  | ⟨0, _⟩ => show win0_1.index t (0 : Fin 3) * 8 + 1 * b.val = b.val; omega
  | ⟨1, _⟩ => show win0_1.index t (1 : Fin 3) * 64 + 1 * r.val = (blockPt t.val r).val; rw [blockPt_val (lt32 t)]; omega
  | ⟨2, _⟩ => show win0_1.index t (2 : Fin 3) * 4 + 1 * d.val = d.val; omega

/-- The target blocks are the whole target arrays. -/
theorem tgtMean_block (c : Dev nD) (t : Fin cfg0.N) (b : Fin 8) (j : Fin 2048) (d : Fin 4) :
    (iblk m c 2 t : Vec Ideal S8x2048x4 .f32) (ix3 b j d) = tgtMean m c (ix3 b j d) := by
  obtain ⟨-, -, -, -, -, -, e0, e1, e2, -⟩ := idx_facts t
  show V m c main_arg2 (((cfg0.win 2).blk t).view.emb (ix3 b j d)) = V m c main_arg2 _
  refine congrArg (V m c main_arg2) (funext fun a => Fin.ext ?_)
  match a with
  | ⟨0, _⟩ => show win0_2.index t (0 : Fin 3) * 8 + 1 * b.val = b.val; omega
  | ⟨1, _⟩ => show win0_2.index t (1 : Fin 3) * 2048 + 1 * j.val = j.val; omega
  | ⟨2, _⟩ => show win0_2.index t (2 : Fin 3) * 4 + 1 * d.val = d.val; omega

theorem tgtLogv_block (c : Dev nD) (t : Fin cfg0.N) (b : Fin 8) (j : Fin 2048) (d : Fin 4) :
    (iblk m c 3 t : Vec Ideal S8x2048x4 .f32) (ix3 b j d) = tgtLogv m c (ix3 b j d) := by
  obtain ⟨-, -, -, -, -, -, -, -, -, e0, e1, e2⟩ := idx_facts t
  show V m c main_arg3 (((cfg0.win 3).blk t).view.emb (ix3 b j d)) = V m c main_arg3 _
  refine congrArg (V m c main_arg3) (funext fun a => Fin.ext ?_)
  match a with
  | ⟨0, _⟩ => show win0_3.index t (0 : Fin 3) * 8 + 1 * b.val = b.val; omega
  | ⟨1, _⟩ => show win0_3.index t (1 : Fin 3) * 2048 + 1 * j.val = j.val; omega
  | ⟨2, _⟩ => show win0_3.index t (2 : Fin 3) * 4 + 1 * d.val = d.val; omega

/-! ## What a point leaves in the carried buffers, over what the point before left -/

/-- The first point: the updates over the reset values. -/
theorem carried_first (c : Dev nD) (t : Fin cfg0.N) (h0 : t.val % 32 = 0) (h1 : ¬t.val % 32 = 31) :
    (outsAt0 m c t.val t.isLt).2.1
        = k0_pay3 (k0_pay8 (iblk m c 0 t) (iblk m c 2 t) (iblk m c 3 t)) (k0_pay9 (iblk m c 1 t) (iblk m c 3 t)) (k0_pay5 (F := Ideal))
    ∧ (outsAt0 m c t.val t.isLt).2.2
        = k0_pay2 (k0_pay8 (iblk m c 0 t) (iblk m c 2 t) (iblk m c 3 t)) (k0_pay9 (iblk m c 1 t) (iblk m c 3 t)) (k0_pay6 (F := Ideal)) := by
  rw [outsAt0_A m c t h0 h1]
  dsimp only
  exact ⟨colBuf_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) _ _, sumBuf_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) _ _⟩

/-- A later point: the updates over what the point before left. -/
theorem carried_later (c : Dev nD) (t : Fin cfg0.N) (h0 : ¬t.val % 32 = 0) :
    (outsAt0 m c t.val t.isLt).2.1
        = k0_pay3 (k0_pay8 (iblk m c 0 t) (iblk m c 2 t) (iblk m c 3 t)) (k0_pay9 (iblk m c 1 t) (iblk m c 3 t)) (outsAt0 m c (t.val - 1) (Nat.lt_of_le_of_lt (Nat.sub_le _ _) t.isLt)).2.1
    ∧ (outsAt0 m c t.val t.isLt).2.2
        = k0_pay2 (k0_pay8 (iblk m c 0 t) (iblk m c 2 t) (iblk m c 3 t)) (k0_pay9 (iblk m c 1 t) (iblk m c 3 t)) (outsAt0 m c (t.val - 1) (Nat.lt_of_le_of_lt (Nat.sub_le _ _) t.isLt)).2.2 := by
  by_cases h1 : t.val % 32 = 31
  · rw [outsAt0_C m c t h0 h1]
    dsimp only
    exact ⟨colBuf_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 _ _,
      sumBuf_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 _ _⟩
  · rw [outsAt0_B m c t h0 h1]
    dsimp only
    exact ⟨colBuf_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 _ _,
      sumBuf_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 _ _⟩

/-- The last point's result block: the final combination of the two buffers as that point leaves them. -/
theorem result_last_eq (c : Dev nD) (t : Fin cfg0.N) (h0 : ¬t.val % 32 = 0) (h1 : t.val % 32 = 31) :
    (outsAt0 m c t.val t.isLt).1 = k0_pay4 (outsAt0 m c t.val t.isLt).2.1 (outsAt0 m c t.val t.isLt).2.2 := by
  rw [outsAt0_C m c t h0 h1]
  dsimp only
  refine (result_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 _ _).trans ?_
  rw [colBuf_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 _ _,
    sumBuf_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 _ _]

/-! ## The induction over the points -/

/-- After point `n` the carried buffers hold the running values after `n + 1` blocks. -/
theorem carried_eq (c : Dev nD) : ∀ (n : ℕ) (hn : n < cfg0.N),
    (∀ (b : Fin 8) (j : Fin 2048), (outsAt0 m c n hn).2.1 (ix2 b j) = colAcc (srcMean m c) (srcLogv m c) (tgtMean m c) (tgtLogv m c) (n + 1) b j)
    ∧ ∀ (b : Fin 8) (u : Fin 1), (outsAt0 m c n hn).2.2 (ix2 b u) = rowAcc (srcMean m c) (srcLogv m c) (tgtMean m c) (tgtLogv m c) (n + 1) b
  | 0, hn => by
    obtain ⟨e1, e2⟩ := carried_first m c ⟨0, hn⟩ rfl (by dsimp only; omega)
    constructor
    · intro b j
      refine (congrFun e1 (ix2 b j)).trans ?_
      refine (colUpdate_apply (iblk m c 0 ⟨0, hn⟩) (iblk m c 1 ⟨0, hn⟩) (iblk m c 2 ⟨0, hn⟩) (iblk m c 3 ⟨0, hn⟩) (srcMean m c) (srcLogv m c) (tgtMean m c) (tgtLogv m c) 0 (srcMean_block m c ⟨0, hn⟩) (srcLogv_block m c ⟨0, hn⟩) (tgtMean_block m c ⟨0, hn⟩) (tgtLogv_block m c ⟨0, hn⟩) k0_pay5 b j).trans ?_
      rw [colReset_apply, colAcc_succ, colAcc_zero]
    · intro b u
      refine (congrFun e2 (ix2 b u)).trans ?_
      refine (sumUpdate_apply (iblk m c 0 ⟨0, hn⟩) (iblk m c 1 ⟨0, hn⟩) (iblk m c 2 ⟨0, hn⟩) (iblk m c 3 ⟨0, hn⟩) (srcMean m c) (srcLogv m c) (tgtMean m c) (tgtLogv m c) 0 (srcMean_block m c ⟨0, hn⟩) (srcLogv_block m c ⟨0, hn⟩) (tgtMean_block m c ⟨0, hn⟩) (tgtLogv_block m c ⟨0, hn⟩) k0_pay6 b u).trans ?_
      rw [sumReset_apply, rowAcc_succ, rowAcc_zero]
  | n + 1, hn => by
    have hN : cfg0.N = 32 := N_0
    obtain ⟨e1, e2⟩ := carried_later m c ⟨n + 1, hn⟩ (by dsimp only; omega)
    obtain ⟨ihc, ihs⟩ := carried_eq c n (Nat.lt_of_succ_lt hn)
    constructor
    · intro b j
      refine (congrFun e1 (ix2 b j)).trans ?_
      refine (colUpdate_apply (iblk m c 0 ⟨n + 1, hn⟩) (iblk m c 1 ⟨n + 1, hn⟩) (iblk m c 2 ⟨n + 1, hn⟩) (iblk m c 3 ⟨n + 1, hn⟩) (srcMean m c) (srcLogv m c) (tgtMean m c) (tgtLogv m c) (n + 1) (srcMean_block m c ⟨n + 1, hn⟩) (srcLogv_block m c ⟨n + 1, hn⟩) (tgtMean_block m c ⟨n + 1, hn⟩) (tgtLogv_block m c ⟨n + 1, hn⟩) _ b j).trans ?_
      rw [colAcc_succ]
      exact congrArg (fun z => min z (blockColMin (srcMean m c) (srcLogv m c) (tgtMean m c) (tgtLogv m c) (n + 1) b j)) (ihc b j)
    · intro b u
      refine (congrFun e2 (ix2 b u)).trans ?_
      refine (sumUpdate_apply (iblk m c 0 ⟨n + 1, hn⟩) (iblk m c 1 ⟨n + 1, hn⟩) (iblk m c 2 ⟨n + 1, hn⟩) (iblk m c 3 ⟨n + 1, hn⟩) (srcMean m c) (srcLogv m c) (tgtMean m c) (tgtLogv m c) (n + 1) (srcMean_block m c ⟨n + 1, hn⟩) (srcLogv_block m c ⟨n + 1, hn⟩) (tgtMean_block m c ⟨n + 1, hn⟩) (tgtLogv_block m c ⟨n + 1, hn⟩) _ b u).trans ?_
      rw [rowAcc_succ]
      exact congrArg (fun z => z + blockRowSum (srcMean m c) (srcLogv m c) (tgtMean m c) (tgtLogv m c) (n + 1) b) (ihs b u)

/-! ## The result array -/

/-- The last grid point. -/
abbrev tLast : Fin cfg0.N := ⟨31, by rw [show cfg0.N = 32 from N_0]; decide⟩

/-- The loss, as contents of the result array. -/
abbrev result (c : Dev nD) : Buf (Elt Ideal) ((c : Thread nD τ).loc main_v0) := lossVec (srcMean m c) (srcLogv m c) (tgtMean m c) (tgtLogv m c)

/-- The block the last point leaves is the loss: after all 32 blocks the column buffer holds the column minima and the sum
    buffer the sum of the row minima. -/
theorem lastBlock_apply (c : Dev nD) (t : Fin cfg0.N) (h : t.val = 31) (b : Fin 8) :
    (outsAt0 m c t.val t.isLt).1 (ix1 b) = loss (srcMean m c) (srcLogv m c) (tgtMean m c) (tgtLogv m c) b := by
  have e := result_last_eq m c t (by omega) (by omega)
  obtain ⟨hc, hs⟩ := carried_eq m c t.val t.isLt
  have h32 : t.val + 1 = 32 := by omega
  rw [e, final_apply, hs b 0]
  simp only [hc, h32]
  unfold loss
  rw [rowAcc_all]
  simp only [colAcc_all]

/-- The output window sits at block index 0 at every point. -/
theorem idx_out : ∀ t : Fin cfg0.N, win0_4.index t (0 : Fin 1) = 0 :=
  (by decide +kernel : ∀ t : Fin grid0.N, _)

/-- The one write-back, at the last point, writes the loss: the block at index 0 of the [8] array is the array. -/
theorem flushed_eq (c : Dev nD) (t : Fin cfg0.N) (hf : (cfg0.win 4).flush t = true) :
    (dats m 0 c).flushed 4 t = ((cfg0.win 4).blk t).view.read (Elt Ideal) (result m c) := by
  have h31 : t.val = 31 := by have := (flush0_4 t).mp hf; have := lt32 t; omega
  have hidx := idx_out t
  rw [Cert.KernelIdeal.Value.flushed4]
  funext y
  have hy : (y 0).val < 8 := lt_of_lt_of_le (y 0).isLt ((cfg0.win 4).xsize_le (grid0.coords t) 0)
  show (outsAt0 m c t.val t.isLt).1 ((cfg0.win 4).xinj (grid0.coords t) y) = result m c (((cfg0.win 4).blk t).view.emb y)
  have e1 : (cfg0.win 4).xinj (grid0.coords t) y = ix1 (⟨(y 0).val, hy⟩ : Fin 8) :=
    funext fun a => Fin.ext (by match a with | ⟨0, _⟩ => rfl)
  have e2 : ((cfg0.win 4).blk t).view.emb y = ix1 (⟨(y 0).val, hy⟩ : Fin 8) :=
    funext fun a => Fin.ext (by
      match a with
      | ⟨0, _⟩ => show win0_4.index t (0 : Fin 1) * 8 + 1 * (y 0).val = (y 0).val; omega)
  rw [e1, e2]
  exact lastBlock_apply m c t h31 _

/-- So the result array ends holding the loss: the last point's block covers it. -/
theorem final_eq (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v0).slice (win0_4.rect tLast)).set
      rw [View.set_slice_whole, Rect.mem_set_unit]
      intro a
      have h0 : (i 0 : Nat) < 8 := (i 0).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 8 from by decide +kernel]; omega⟩

/-- The run, read: the result array at the loss of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Cert.KernelIdeal.Value.run_blocks m ρ)

end Cert.KernelIdeal.KValue

end
-- ==== Proof.RefValue.lean ====
/-
  The reference computes the loss of Spec.lean.

  Read one operation at a time, the reference's array of pairwise divergences holds `pkl b i j` at `(b, i, j)`: its
  operations are the divergence's own, in the same order, each sum over the four coordinates started from a zero that
  adds nothing. Its two minimum-reductions are the column and the row minimum, its two sums add them up, and the last
  addition is the loss.
-/
import proofs.«121429_j72688026517737_1_alg».proof.Proof.Gen.ReferenceIdeal.Read
import proofs.«121429_j72688026517737_1_alg».proof.Proof.Spec
import proofs.«121429_j72688026517737_1_alg».proof.Proof.LibMinReduce

noncomputable section

namespace Cert.ReferenceIdeal.RefValue

open Cert.ReferenceIdeal Cert.ReferenceIdeal.Gen Cert.ReferenceIdeal.Read Idealize.ShloMosaic Idealize.ShloMosaic.ValueIdx
open Cert.Chamfer Cert.MinReduce

variable (mp lp mg lg : Pts)

/-- The array of pairwise divergences, read at `(b, i, j)`. -/
theorem divergence_apply (b : Fin 8) (i j : Fin 2048) :
    val_main_v29 (F := Ideal) mp lp mg lg (ix3 b i j) = pkl mp lp mg lg b i j := by
  have e1 : ∀ k : Fin 4, idx_main_v2 (idx_main_v19 (idx_main_v23 (ix3 b i j))) k = ix3 b i k := fun k =>
    funext fun a => Fin.ext (by match a with | ⟨0, _⟩ => rfl | ⟨1, _⟩ => rfl | ⟨2, _⟩ => rfl)
  have e2 : ∀ k : Fin 4, idx_main_v3 (idx_main_v22 (idx_main_v24 (ix3 b i j))) k = ix3 b j k := fun k =>
    funext fun a => Fin.ext (by match a with | ⟨0, _⟩ => rfl | ⟨1, _⟩ => rfl | ⟨2, _⟩ => rfl)
  have e3 : ∀ k : Fin 4, lidx_main_v5 (ix3 b i j) k = ix3 b i k := fun k =>
    funext fun a => Fin.ext (by match a with | ⟨0, _⟩ => rfl | ⟨1, _⟩ => rfl | ⟨2, _⟩ => rfl)
  have e4 : ∀ k : Fin 4, ridx_main_v5 (ix3 b i j) k = ix3 b j k := fun k =>
    funext fun a => Fin.ext (by match a with | ⟨0, _⟩ => rfl | ⟨1, _⟩ => rfl | ⟨2, _⟩ => rfl)
  have e5 : ∀ k : Fin 4, lidx_main_v7 (ix3 b i j) k = ix3 b i k := fun k =>
    funext fun a => Fin.ext (by match a with | ⟨0, _⟩ => rfl | ⟨1, _⟩ => rfl | ⟨2, _⟩ => rfl)
  have e6 : ∀ k : Fin 4, ridx_main_v7 (ix3 b i j) k = ix3 b j k := fun k =>
    funext fun a => Fin.ext (by match a with | ⟨0, _⟩ => rfl | ⟨1, _⟩ => rfl | ⟨2, _⟩ => rfl)
  have e7 : ∀ k : Fin 4, lidx_main_v9 (ix3 b i j) k = ix3 b i k := fun k =>
    funext fun a => Fin.ext (by match a with | ⟨0, _⟩ => rfl | ⟨1, _⟩ => rfl | ⟨2, _⟩ => rfl)
  have e8 : ∀ k : Fin 4, ridx_main_v9 (ix3 b i j) k = ix3 b j k := fun k =>
    funext fun a => Fin.ext (by match a with | ⟨0, _⟩ => rfl | ⟨1, _⟩ => rfl | ⟨2, _⟩ => rfl)
  have e9 : ∀ k : Fin 4, idx_main_v15 (idx_main_v16 (idx_main_v17 (ix3 b i j))) k = ix3 b j k := fun k =>
    funext fun a => Fin.ext (by match a with | ⟨0, _⟩ => rfl | ⟨1, _⟩ => rfl | ⟨2, _⟩ => rfl)
  rw [val_main_v29_apply, val_main_v28_apply, val_main_cst_4_apply, val_main_v27_apply, val_main_v26_apply,
    val_main_v25_apply, val_main_v23_apply, val_main_v21_apply, val_main_v20_apply, val_main_cst_3_apply,
    val_main_v19_apply, val_main_v2_apply, val_main_cst_apply, val_main_v24_apply, val_main_v22_apply, val_main_v3_apply,
    val_main_cst_0_apply, val_main_v5_apply, val_main_v18_apply, val_main_v12_apply, val_main_v7_apply,
    val_main_v11_apply, val_main_v10_apply, val_main_cst_1_apply, val_main_v9_apply, val_main_v17_apply,
    val_main_v16_apply, val_main_v15_apply, val_main_cst_2_apply]
  simp only [e1, e2, e3, e4, e5, e6, e7, e8, e9, val_main_v4_apply, val_main_v1_apply, val_main_v0_apply, val_main_v6_apply,
    val_main_v8_apply, val_main_v14_apply, val_main_v13_apply, Ideal.mulf_def, Ideal.subf_def, Ideal.addf_def,
    Ideal.hostUnary_exp_def, Ideal.hostNegf_def, Ideal.negf_def, Ideal.ofBits_def, Ideal.ofBits_zero_f32, zero_add]
  rfl

/-- The minimum over the source points (axis 1), read at `(b, j)`: the column minimum. -/
theorem colMin_apply (b : Fin 8) (j : Fin 2048) :
    val_main_v30 (F := Ideal) mp lp mg lg (ix2 b j) = colMin mp lp mg lg b j := by
  unfold val_main_v30 colMin
  refine (hostReduce_minimumf_single _ _ reducesTo_S8x2048x2048_S8x2048_d1 (by decide) h_S_ (ix2 b j)).trans ?_
  rw [val_main_cst_5_apply, Ideal.ofBits_def, ofBits_inf_f32]
  refine Finset.fold_congr fun k _ => ?_
  refine Eq.trans (congrArg (val_main_v29 (F := Ideal) mp lp mg lg) ?_) (divergence_apply mp lp mg lg b k j)
  exact funext fun a => Fin.ext (by match a with | ⟨0, _⟩ => rfl | ⟨1, _⟩ => rfl | ⟨2, _⟩ => rfl)

/-- The minimum over the target points (axis 2), read at `(b, i)`: the row minimum. -/
theorem rowMin_apply (b : Fin 8) (i : Fin 2048) :
    val_main_v32 (F := Ideal) mp lp mg lg (ix2 b i) = rowMin mp lp mg lg b i := by
  unfold val_main_v32 rowMin
  refine (hostReduce_minimumf_single _ _ reducesTo_S8x2048x2048_S8x2048_d2 (by decide) h_S_ (ix2 b i)).trans ?_
  rw [val_main_cst_7_apply, Ideal.ofBits_def, ofBits_inf_f32]
  refine Finset.fold_congr fun k _ => ?_
  refine Eq.trans (congrArg (val_main_v29 (F := Ideal) mp lp mg lg) ?_) (divergence_apply mp lp mg lg b i k)
  exact funext fun a => Fin.ext (by match a with | ⟨0, _⟩ => rfl | ⟨1, _⟩ => rfl | ⟨2, _⟩ => rfl)

/-- The reference's result is the loss. -/
theorem result_eq : val_main_v34 (F := Ideal) mp lp mg lg = lossVec mp lp mg lg := by
  funext y
  obtain ⟨b, rfl⟩ : ∃ b : Fin 8, y = ix1 b := ⟨y 0, eq_ix1 y⟩
  have e1 : ∀ k : Fin 2048, idx_main_v31 (ix1 b) k = ix2 b k := fun k =>
    funext fun a => Fin.ext (by match a with | ⟨0, _⟩ => rfl | ⟨1, _⟩ => rfl)
  have e2 : ∀ k : Fin 2048, idx_main_v33 (ix1 b) k = ix2 b k := fun k =>
    funext fun a => Fin.ext (by match a with | ⟨0, _⟩ => rfl | ⟨1, _⟩ => rfl)
  rw [val_main_v34_apply, val_main_v31_apply, val_main_v33_apply, val_main_cst_6_apply, val_main_cst_8_apply]
  simp only [e1, e2, colMin_apply, rowMin_apply, Ideal.addf_def, Ideal.ofBits_def, Ideal.ofBits_zero_f32, zero_add]
  rfl

end Cert.ReferenceIdeal.RefValue

end
-- ==== Proof.lean ====
/-
  The Chamfer loss between two clouds of 2048 diagonal Gaussians in four dimensions, eight batches, under the
  Kullback–Leibler divergence: a kernel that walks the source points in 32 blocks of 64, against the direct formula.

  For source point `i` and target point `j` of a batch the divergence `pkl i j` is a fixed expression in the two points'
  means and log-variances (sums over the four coordinates, products with `e^{−log-variance}`); the loss of the batch is
  `Σ_j min_i pkl i j + Σ_i min_j pkl i j` (Proof/Spec.lean). The reference forms all 2048 × 2048 divergences, reduces them
  by a minimum along each axis and sums (Proof/RefValue.lean). The kernel forms them one block of 64 source points at a
  time, with the same operations in the same order; from each block it merges the column minima into a running column
  minimum and adds the block's row minima to a running sum, both carried from grid point to grid point; after the last
  block it adds the summed running column minimum to the running sum (Proof/KernelPayload.lean, Proof/KernelRun.lean).

  The two agree on the extended reals because a minimum over 2048 points is the minimum over the blocks of the blocks'
  minima, and a sum over 2048 points is the sum over the blocks of the blocks' sums: `min` and `+` commute and
  associate there, the top element is neutral for `min` and zero for `+`. The only other difference between the two
  texts is `0 − x` against `−x`. No step needs a finite value, so the precondition is never opened.
  The ideal pass rewrote nothing, so the kernel's idealization is its own text.
-/
import proofs.«121429_j72688026517737_1_alg».proof.Defs
import proofs.«121429_j72688026517737_1_alg».proof.Proof.Gen.Kernel
import proofs.«121429_j72688026517737_1_alg».proof.Proof.Gen.Kernel.Skeleton
import proofs.«121429_j72688026517737_1_alg».proof.Proof.Gen.Kernel.Launch
import proofs.«121429_j72688026517737_1_alg».proof.Proof.Gen.Kernel.Points
import proofs.«121429_j72688026517737_1_alg».proof.Proof.Gen.Kernel.Frame
import proofs.«121429_j72688026517737_1_alg».proof.Proof.Gen.KernelIdeal
import proofs.«121429_j72688026517737_1_alg».proof.Proof.Gen.KernelIdeal.Skeleton
import proofs.«121429_j72688026517737_1_alg».proof.Proof.Gen.KernelIdeal.Launch
import proofs.«121429_j72688026517737_1_alg».proof.Proof.Gen.KernelIdeal.Points
import proofs.«121429_j72688026517737_1_alg».proof.Proof.Gen.KernelIdeal.Frame
import proofs.«121429_j72688026517737_1_alg».proof.Proof.Gen.ReferenceIdeal
import proofs.«121429_j72688026517737_1_alg».proof.Proof.Gen.Pre_finite_inputs
import proofs.«121429_j72688026517737_1_alg».proof.Proof.Gen.KernelIdeal.Value
import proofs.«121429_j72688026517737_1_alg».proof.Proof.Gen.ReferenceIdeal.Run
import proofs.«121429_j72688026517737_1_alg».proof.Proof.Gen.ReferenceIdeal.Read
import proofs.«121429_j72688026517737_1_alg».proof.Proof.KernelRun
import proofs.«121429_j72688026517737_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- On the extended reals the kernel's result array ends at the loss of its argument arrays, and so does the reference's, of
    arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
